-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x56x56 : Shape := ⟨4, ![8, 64, 56, 56]⟩
abbrev S64x64x1x1 : Shape := ⟨4, ![64, 64, 1, 1]⟩
abbrev S_ : Shape := ⟨0, ![]⟩

class Facts : Prop where
  bcast_S_S8x64x56x56 : S_.BroadcastsInDim S8x64x56x56 (![] : Fin 0 → Fin S8x64x56x56.rank)
  reducesTo_S8x64x56x56_S_d0_1_2_3 : S8x64x56x56.ReducesTo [0, 1, 2, 3] S_
  h_S_ : 0 < S_.numel
  bcast_S_S64x64x1x1 : S_.BroadcastsInDim S64x64x1x1 (![] : Fin 0 → Fin S64x64x1x1.rank)
  reducesTo_S64x64x1x1_S_d0_1_2_3 : S64x64x1x1.ReducesTo [0, 1, 2, 3] S_

variable [Facts]

def fn {F : FTy → Type} [FloatOps F] (main_arg0 : FVec F S8x64x56x56 .f32) (main_arg1 : FVec F S64x64x1x1 .f32) : IVec S_ 1 :=
  let main_v0 : FVec F S8x64x56x56 .f32 := Host.absf main_arg0
  let main_cst : FVec F S_ .f32 := constant S_ .f32 0x7F800000#32
  let main_v1 : FVec F S8x64x56x56 .f32 := broadcastInDim S8x64x56x56 ![] bcast_S_S8x64x56x56 main_cst
  let main_v2 : IVec S8x64x56x56 1 := cmpf .olt main_v0 main_v1
  let main_c : IVec S_ 1 := constantI S_ 1 1#1
  let main_v3 : IVec S_ 1 := (fun x v => Host.reduce IntOp.andi x v reducesTo_S8x64x56x56_S_d0_1_2_3 h_S_) main_v2 main_c
  let main_v4 : FVec F S64x64x1x1 .f32 := Host.absf main_arg1
  let main_cst_0 : FVec F S_ .f32 := constant S_ .f32 0x7F800000#32
  let main_v5 : FVec F S64x64x1x1 .f32 := broadcastInDim S64x64x1x1 ![] bcast_S_S64x64x1x1 main_cst_0
  let main_v6 : IVec S64x64x1x1 1 := cmpf .olt main_v4 main_v5
  let main_c_1 : IVec S_ 1 := constantI S_ 1 1#1
  let main_v7 : IVec S_ 1 := (fun x v => Host.reduce IntOp.andi x v reducesTo_S64x64x1x1_S_d0_1_2_3 h_S_) main_v6 main_c_1
  let main_v8 : IVec S_ 1 := andi main_v3 main_v7
  main_v8
-- ==== Kernel.lean ====
abbrev S8x64x56x56 : Shape := ⟨4, ![8, 64, 56, 56]⟩
abbrev S64x64x1x1 : Shape := ⟨4, ![64, 64, 1, 1]⟩
abbrev S64x64 : Shape := ⟨2, ![64, 64]⟩
abbrev S1x64x56x56 : Shape := ⟨4, ![1, 64, 56, 56]⟩
abbrev S8x64 : Shape := ⟨2, ![8, 64]⟩
abbrev S1x8x56x56 : Shape := ⟨4, ![1, 8, 56, 56]⟩
abbrev S64x56x56 : Shape := ⟨3, ![64, 56, 56]⟩
abbrev S8x64x1x1 : Shape := ⟨4, ![8, 64, 1, 1]⟩
abbrev S8x56x56 : Shape := ⟨3, ![8, 56, 56]⟩

abbrev nBuf : Space → Nat
  | .hbm => 4
  | .vmem => 6
  | .smem => 0
  | _ => 0

abbrev bufTy : (tb : Table) → Fin (tcTables nBuf tb) → BufTy
  | .hbm, ⟨0, _⟩ => ⟨S8x64x56x56, .f32⟩
  | .hbm, ⟨1, _⟩ => ⟨S64x64x1x1, .f32⟩
  | .hbm, ⟨2, _⟩ => ⟨S64x64, .f32⟩
  | .hbm, ⟨3, _⟩ => ⟨S8x64x56x56, .f32⟩
  | .local _ .vmem, ⟨0, _⟩ => ⟨S1x64x56x56, .f32⟩
  | .local _ .vmem, ⟨1, _⟩ => ⟨S1x64x56x56, .f32⟩
  | .local _ .vmem, ⟨2, _⟩ => ⟨S8x64, .f32⟩
  | .local _ .vmem, ⟨3, _⟩ => ⟨S8x64, .f32⟩
  | .local _ .vmem, ⟨4, _⟩ => ⟨S1x8x56x56, .f32⟩
  | .local _ .vmem, ⟨5, _⟩ => ⟨S1x8x56x56, .f32⟩
  | _, _ => ⟨S8x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S64x64x1x1_S64x64 : S64x64x1x1.ShapeCasts S64x64
  inb_S1x64x56x56_S1x64x56x56_0_0_0_0 : ∀ a, (![0, 0, 0, 0] : Fin 4 → Nat) a + S1x64x56x56.size a ≤ S1x64x56x56.size a
  h_S1x64x56x56 : 0 < S1x64x56x56.numel
  shapeCasts_S1x64x56x56_S64x56x56 : S1x64x56x56.ShapeCasts S64x56x56
  inb_S8x64_S8x64_0_0 : ∀ a, (![0, 0] : Fin 2 → Nat) a + S8x64.size a ≤ S8x64.size a
  h_S8x64 : 0 < S8x64.numel
  shapeCasts_S8x64_S8x64 : S8x64.ShapeCasts S8x64
  shapeCasts_S64x56x56_S1x64x56x56 : S64x56x56.ShapeCasts S1x64x56x56
  shapeCasts_S8x64_S8x64x1x1 : S8x64.ShapeCasts S8x64x1x1
  broadcasts_S1x64x56x56_S8x64x56x56 : S1x64x56x56.Broadcasts S8x64x56x56
  broadcasts_S8x64x1x1_S8x64x56x56 : S8x64x1x1.Broadcasts S8x64x56x56
  reduces_S8x64x56x56_S8x56x56 : S8x64x56x56.Reduces [1] S8x56x56
  inb_S1x8x56x56_S1x8x56x56_0_0_0_0 : ∀ a, (![0, 0, 0, 0] : Fin 4 → Nat) a + S1x8x56x56.size a ≤ S1x8x56x56.size a
  h_S1x8x56x56 : 0 < S1x8x56x56.numel
  shapeCasts_S1x8x56x56_S8x56x56 : S1x8x56x56.ShapeCasts S8x56x56
  shapeCasts_S8x56x56_S1x8x56x56 : S8x56x56.ShapeCasts S1x8x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x56x56.size a ≤ S8x64x56x56.size a
  hwx0_0 : ∀ i : grid0.Coords, EltTy.bits .f32 = 32 ∨ (Rect.block (s := S8x64x56x56) S1x64x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S64x64.size a
  hwx0_1 : ∀ i : grid0.Coords, EltTy.bits .f32 = 32 ∨ (Rect.block (s := S64x64) S8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x56x56.size a ≤ S8x64x56x56.size a
  hwx0_2 : ∀ i : grid0.Coords, EltTy.bits .f32 = 32 ∨ (Rect.block (s := S8x64x56x56) S1x8x56x56.size (cc0_transform_2 i) (hinb0_2 i)).WholeWords (EltTy.packing .f32)

variable [Facts₀]

abbrev win0_0 : Pipeline.Window sig grid0 :=
  Pipeline.Window.ofSpec (Memref.whole main_arg0) S1x64x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x56x56.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x56x56 : Shape := ⟨4, ![8, 64, 56, 56]⟩
abbrev S64x64x1x1 : Shape := ⟨4, ![64, 64, 1, 1]⟩
abbrev S64x64 : Shape := ⟨2, ![64, 64]⟩
abbrev S8x1x64x56x56 : Shape := ⟨5, ![8, 1, 64, 56, 56]⟩
abbrev S1x64x64x1x1 : Shape := ⟨5, ![1, 64, 64, 1, 1]⟩
abbrev S8x64x64x56x56 : Shape := ⟨5, ![8, 64, 64, 56, 56]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8x64x56x56, .f32⟩
  | .hbm, ⟨1, _⟩ => ⟨S64x64x1x1, .f32⟩
  | .hbm, ⟨2, _⟩ => ⟨S64x64, .f32⟩
  | .hbm, ⟨3, _⟩ => ⟨S8x1x64x56x56, .f32⟩
  | .hbm, ⟨4, _⟩ => ⟨S1x64x64x1x1, .f32⟩
  | .hbm, ⟨5, _⟩ => ⟨S8x64x64x56x56, .f32⟩
  | .hbm, ⟨6, _⟩ => ⟨S8x64x64x56x56, .f32⟩
  | .hbm, ⟨7, _⟩ => ⟨S8x64x64x56x56, .f32⟩
  | .hbm, ⟨8, _⟩ => ⟨S8x64x64x56x56, .f32⟩
  | .hbm, ⟨9, _⟩ => ⟨S_, .f32⟩
  | .hbm, ⟨10, _⟩ => ⟨S8x64x56x56, .f32⟩
  | _, _ => ⟨S8x64x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S64x64x1x1_S64x64 : S64x64x1x1.ShapeCasts S64x64
  bcast_S8x64x56x56_S8x1x64x56x56_0_2_3_4 : S8x64x56x56.BroadcastsInDim S8x1x64x56x56 (![0, 2, 3, 4] : Fin 4 → Fin S8x1x64x56x56.rank)
  bcast_S64x64_S1x64x64x1x1_1_2 : S64x64.BroadcastsInDim S1x64x64x1x1 (![1, 2] : Fin 2 → Fin S1x64x64x1x1.rank)
  bcast_S8x1x64x56x56_S8x64x64x56x56_0_1_2_3_4 : S8x1x64x56x56.BroadcastsInDim S8x64x64x56x56 (![0, 1, 2, 3, 4] : Fin 5 → Fin S8x64x64x56x56.rank)
  bcast_S1x64x64x1x1_S8x64x64x56x56_0_1_2_3_4 : S1x64x64x1x1.BroadcastsInDim S8x64x64x56x56 (![0, 1, 2, 3, 4] : Fin 5 → Fin S8x64x64x56x56.rank)
  reducesTo_S8x64x64x56x56_S8x64x56x56_d2 : S8x64x64x56x56.ReducesTo [2] S8x64x56x56
  h_S_ : 0 < S_.numel

variable [Facts₀]

class Facts : Prop extends Facts₀ where

variable [Facts]
-- ==== Proof.BodyIsDinf.lean ====
/-
  What the kernel body stores, read at an index of the output block.

  The body loads the point's input block `P0` ([1, 64, 56, 56]: all input channels of one batch entry) and its
  weight block `P1` ([8, 64]: eight output channels), broadcasts both to [8, 64, 56, 56], adds, takes absolute
  values, reduces axis 1 (the input channel) with `max` from −∞ and stores the [8, 56, 56] result as a
  [1, 8, 56, 56] block. At the block index (0, o, h, w) the stored value is therefore

      max over k of | P0[0, k, h, w] + P1[o, k] |,

  the fold of `max` from −∞ over `Fin 64`: the leading unit axis is dropped by row-major position, a one-axis
  reduction is the fold over the coordinate inserted on that axis, a broadcast reads 0 on its operand's unit axes,
  and the shape casts of the loads are undone (there and back) or read by row-major position ([8, 64] as
  [8, 64, 1, 1]).
-/
import proofs.«101002_j53429393162852_1_alg».proof.Proof.Gen.KernelIdeal.Skeleton
import Idealize.ShloMosaic.Lib.Pipeline.Value
import Idealize.ShloMosaic.PureOps.Ideal.Laws
import Idealize.ShloMosaic.Lib.ValueIdx

noncomputable section

namespace Cert.KernelIdeal.Body

open Cert.KernelIdeal Cert.KernelIdeal.Gen Idealize.ShloMosaic Idealize.ShloMosaic.ValueIdx

/-- The stored value as the tree of vector operations the body applies to its two loads. -/
theorem pay_tree {F : FTy → Type} [FloatOps F] (P0 : Vec F S1x64x56x56 .f32) (P1 : Vec F S8x64 .f32) :
    k0_pay1 P0 P1 = shapeCast S1x8x56x56 (multiReduction .maximumf [1] S8x56x56
      (absf (addf
        (broadcastTo S8x64x56x56 (shapeCast S1x64x56x56 (shapeCast S64x56x56 P0 shapeCasts_S1x64x56x56_S64x56x56)
          shapeCasts_S64x56x56_S1x64x56x56) broadcasts_S1x64x56x56_S8x64x56x56)
        (broadcastTo S8x64x56x56 (shapeCast S8x64x1x1 (shapeCast S8x64 P1 shapeCasts_S8x64_S8x64)
          shapeCasts_S8x64_S8x64x1x1) broadcasts_S8x64x1x1_S8x64x56x56)))
      0xFF800000#32 reduces_S8x64x56x56_S8x56x56 (.inl rfl) rfl) shapeCasts_S8x56x56_S1x8x56x56 := rfl

/-- The broadcast input block at (o, k, h, w) is the block at (0, k, h, w): the output-channel axis is new. -/
theorem x_bcast (P0 : FVec Ideal S1x64x56x56 .f32) (o : Fin 8) (h w : Fin 56) (k : Fin (S8x64x56x56.size 1)) :
    broadcastTo S8x64x56x56 (shapeCast S1x64x56x56 (shapeCast S64x56x56 P0 shapeCasts_S1x64x56x56_S64x56x56)
      shapeCasts_S64x56x56_S1x64x56x56) broadcasts_S1x64x56x56_S8x64x56x56
      (reduces_S8x64x56x56_S8x56x56.lift (ix3 o h w) k) = P0 (ix4 (0 : Fin 1) k h w) := by
  refine (broadcastTo_apply _ broadcasts_S1x64x56x56_S8x64x56x56 _ (ix4 (0 : Fin 1) k h w) (fun a => ?_)).trans
    (congrFun (shapeCast_shapeCast P0 _ _) _)
  match a with
  | ⟨0, _⟩ => show 0 = if (1 : Nat) = 1 then 0 else o.val; rw [if_pos rfl]
  | ⟨1, _⟩ => show k.val = if (64 : Nat) = 1 then 0 else k.val; rw [if_neg (by decide)]
  | ⟨2, _⟩ => show h.val = if (56 : Nat) = 1 then 0 else h.val; rw [if_neg (by decide)]
  | ⟨3, _⟩ => show w.val = if (56 : Nat) = 1 then 0 else w.val; rw [if_neg (by decide)]

/-- The broadcast weight block at (o, k, h, w) is the block at (o, k): rows and columns are new. -/
theorem w_bcast (P1 : FVec Ideal S8x64 .f32) (o : Fin 8) (h w : Fin 56) (k : Fin (S8x64x56x56.size 1)) :
    broadcastTo S8x64x56x56 (shapeCast S8x64x1x1 (shapeCast S8x64 P1 shapeCasts_S8x64_S8x64)
      shapeCasts_S8x64_S8x64x1x1) broadcasts_S8x64x1x1_S8x64x56x56
      (reduces_S8x64x56x56_S8x56x56.lift (ix3 o h w) k) = P1 (ix2 o k) := by
  have ho : o.val < 8 := o.isLt
  have hk : k.val < 64 := k.isLt
  refine (broadcastTo_apply _ broadcasts_S8x64x1x1_S8x64x56x56 _ (ix4 o k (0 : Fin 1) (0 : Fin 1)) (fun a => ?_)).trans
    ((shapeCast_apply _ shapeCasts_S8x64_S8x64x1x1 (ix4 o k (0 : Fin 1) (0 : Fin 1)) (ix2 o k) ?_).trans
      (congrFun (shapeCast_self P1 _) _))
  · match a with
    | ⟨0, _⟩ => show o.val = if (8 : Nat) = 1 then 0 else o.val; rw [if_neg (by decide)]
    | ⟨1, _⟩ => show k.val = if (64 : Nat) = 1 then 0 else k.val; rw [if_neg (by decide)]
    | ⟨2, _⟩ => show 0 = if (1 : Nat) = 1 then 0 else h.val; rw [if_pos rfl]
    | ⟨3, _⟩ => show 0 = if (1 : Nat) = 1 then 0 else w.val; rw [if_pos rfl]
  · rw [Shape.rowMajor_val_two, Shape.rowMajor_val_four]
    show o.val * 64 + k.val = ((o.val * 64 + k.val) * 1 + 0) * 1 + 0
    omega

/-- THE STORED VALUE at (0, o, h, w): the maximum, from −∞, over the input channels `k` of
    `|P0[0, k, h, w] + P1[o, k]|`. -/
theorem pay_apply (P0 : FVec Ideal S1x64x56x56 .f32) (P1 : FVec Ideal S8x64 .f32) (o : Fin 8) (h w : Fin 56) :
    k0_pay1 (F := Ideal) P0 P1 (ix4 (0 : Fin 1) o h w)
      = (Finset.univ : Finset (Fin 64)).fold max (Ideal.ofBits .f32 0xFF800000#32)
          (fun k => FloatOps.absf (F := Ideal) (φ := .f32) (P0 (ix4 (0 : Fin 1) k h w) + P1 (ix2 o k))) := by
  have ho : o.val < 8 := o.isLt
  have hh : h.val < 56 := h.isLt
  have hw : w.val < 56 := w.isLt
  rw [pay_tree]
  refine (shapeCast_apply _ shapeCasts_S8x56x56_S1x8x56x56 (ix4 (0 : Fin 1) o h w) (ix3 o h w) ?_).trans ?_
  · rw [Shape.rowMajor_val_three, Shape.rowMajor_val_four]
    show (o.val * 56 + h.val) * 56 + w.val = (((0 * 8 + o.val) * 56 + h.val) * 56 + w.val)
    omega
  refine (Ideal.multiReduction_maximumf_single _ _ reduces_S8x64x56x56_S8x56x56 _ _ (ix3 o h w)).trans ?_
  refine congrArg (fun f => (Finset.univ : Finset (Fin 64)).fold max (Ideal.ofBits .f32 0xFF800000#32) f) (funext fun k => ?_)
  show FloatOps.absf (F := Ideal) (φ := .f32) (_ + _) = _
  rw [x_bcast P0 o h w k, w_bcast P1 o h w k]

end Cert.KernelIdeal.Body

end
-- ==== Proof.DinfSpec.lean ====
/-
  The d_inf channel mixing, as one function of the two argument arrays over the extended reals.

  For an input `x` of shape [8, 64, 56, 56] (batch, input channel, row, column) and a weight `wt` of shape
  [64, 64, 1, 1] (output channel, input channel, 1, 1) the result at (b, o, h, w) is

      max over the 64 input channels k of | x[b, k, h, w] + wt[o, k, 0, 0] |,

  the maximum taken from −∞ (the f32 word 0xFF800000), so that it is the lattice fold of `max` over `Fin 64`.
  Nothing here needs the entries to be finite: `max`, `+` and `|·| = max · (−·)` are total on the extended reals
  and both programs apply them to the same 64 terms.
-/
import Idealize.ShloMosaic.PureOps.Ideal
import Idealize.ShloMosaic.PureOps.Ideal.Laws
import Idealize.ShloMosaic.Lib.ValueIdx

noncomputable section

namespace Cert.Dinf

open Idealize.ShloMosaic Idealize.ShloMosaic.ValueIdx

/-- The shapes of the two arguments (and of the result, which has the input's shape). -/
abbrev SX : Shape := ⟨4, ![8, 64, 56, 56]⟩
abbrev SW : Shape := ⟨4, ![64, 64, 1, 1]⟩

/-- One term of the maximum: `|x[b, k, h, w] + wt[o, k, 0, 0]|` for the result index `j = (b, o, h, w)`. -/
def term (x : FVec Ideal SX .f32) (wt : FVec Ideal SW .f32) (j : SX.Idx) (k : Fin 64) : EReal :=
  FloatOps.absf (F := Ideal) (φ := .f32)
    (x (ix4 (j 0) k (j 2) (j 3)) + wt (ix4 (j 1) k (0 : Fin 1) (0 : Fin 1)))

/-- The d_inf mixing: at `j = (b, o, h, w)` the maximum, from −∞, of the 64 terms. -/
def dinf (x : FVec Ideal SX .f32) (wt : FVec Ideal SW .f32) : FVec Ideal SX .f32 :=
  fun j => (Finset.univ : Finset (Fin 64)).fold max (Ideal.ofBits .f32 0xFF800000#32) (term x wt j)

theorem dinf_apply (x : FVec Ideal SX .f32) (wt : FVec Ideal SW .f32) (j : SX.Idx) :
    dinf x wt j = (Finset.univ : Finset (Fin 64)).fold max (Ideal.ofBits .f32 0xFF800000#32) (term x wt j) := rfl

end Cert.Dinf

end
-- ==== Proof.KernelIsDinf.lean ====
/-
  The idealized kernel's result array is the d_inf mixing of its two arguments.

  The grid has 8 × 8 points (b, c). Point (b, c) stages batch entry b of the input (all 64 input channels),
  rows 8c … 8c+7 of the weight — the host reshapes the [64, 64, 1, 1] weight to [64, 64] before the call, so row r,
  column k of that array is the weight at (r, k, 0, 0) — and writes back the output block of batch entry b,
  output channels 8c … 8c+7. By the body's stored value (`Body.pay_apply`), element (0, o, h, w) of the block
  that point writes is the maximum over k of |x[b, k, h, w] + wt[8c + o, k, 0, 0]|, which is the d_inf mixing at
  the array index (b, 8c + o, h, w) the block element lands on. The 64 blocks tile the array (the block of
  (b, r, h, w) is the one of point (b, r / 8)), so the whole array after the run is `Cert.Dinf.dinf` of the arguments.
-/
import proofs.«101002_j53429393162852_1_alg».proof.Proof.KernelIdealValue
import proofs.«101002_j53429393162852_1_alg».proof.Proof.BodyIsDinf
import proofs.«101002_j53429393162852_1_alg».proof.Proof.DinfSpec
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.Dinf
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The weight window's array, as the region finds it, is the host's reshape of the weight argument. -/
theorem V_main_v0 (c : Dev nD) :
    (V m c main_v0 : S64x64.Idx → EReal) = shapeCast S64x64 (m ((c : Thread nD τ).loc main_arg1)) shapeCasts_S64x64x1x1_S64x64 := by
  dsimp only [Gen.V, Gen.hostOps0]; after_results; rfl

/-- The printed index maps over the 64 grid points: the input window follows the output's batch index and stays at
    block 0 on its other axes; the weight window's row block is the output's channel block; the output's blocks are
    indexed (b, c, 0, 0) with b, c ≤ 7. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 2) = win0_2.index t (1 : Fin 4) ∧ win0_1.index t (1 : Fin 2) = 0
    ∧ win0_2.index t (2 : Fin 4) = 0 ∧ win0_2.index t (3 : Fin 4) = 0
    ∧ win0_2.index t (0 : Fin 4) ≤ 7 ∧ win0_2.index t (1 : Fin 4) ≤ 7 :=
  (by decide +kernel : ∀ t : Fin grid0.N, _)

/-- Every (batch entry, channel block) is some point's output block. -/
theorem idx_onto : ∀ (q0 : Fin 8) (q1 : Fin 8), ∃ t : Fin cfg0.N, win0_2.index t = ![q0.val, q1.val, 0, 0] :=
  (by decide +kernel : ∀ (q0 : Fin 8) (q1 : Fin 8), ∃ t : Fin grid0.N, win0_2.index t = ![q0.val, q1.val, 0, 0])

/-- The batch entry of point `t`. -/
def bt (t : Fin cfg0.N) : Fin 8 := ⟨win0_2.index t (0 : Fin 4), by have := idx_facts t; omega⟩
/-- The output channel that row `o` of point `t`'s block is. -/
def oc (t : Fin cfg0.N) (o : Fin 8) : Fin 64 :=
  ⟨win0_2.index t (1 : Fin 4) * 8 + o.val, by have := idx_facts t; have := o.isLt; omega⟩

/-- Element (0, o, h, w) of point `t`'s output block lands on the array index (b, 8c + o, h, w). -/
theorem out_index (t : Fin cfg0.N) (o : Fin 8) (h w : Fin 56) :
    ((cfg0.win 2).blk t).view.emb (ix4 (0 : Fin 1) o h w) = ix4 (bt t) (oc t o) h w := by
  obtain ⟨e0, e1, e2, e3, e4, e5, e6, e7, e8, e9⟩ := idx_facts t
  funext a; apply Fin.ext
  match a with
  | ⟨0, _⟩ => show win0_2.index t (0 : Fin 4) * 1 + 1 * 0 = win0_2.index t (0 : Fin 4); omega
  | ⟨1, _⟩ => show win0_2.index t (1 : Fin 4) * 8 + 1 * o.val = win0_2.index t (1 : Fin 4) * 8 + o.val; omega
  | ⟨2, _⟩ => show win0_2.index t (2 : Fin 4) * 56 + 1 * h.val = h.val; omega
  | ⟨3, _⟩ => show win0_2.index t (3 : Fin 4) * 56 + 1 * w.val = w.val; omega

/-- Element (0, k, h, w) of point `t`'s input block is the input argument at (b, k, h, w). -/
theorem x_block (c : Dev nD) (t : Fin cfg0.N) (k : Fin 64) (h w : Fin 56) :
    iblk m c 0 t (ix4 (0 : Fin 1) k h w) = m ((c : Thread nD τ).loc main_arg0) (ix4 (bt t) k h w) := by
  obtain ⟨e0, e1, e2, e3, e4, e5, e6, e7, e8, e9⟩ := idx_facts t
  show V m c main_arg0 (((cfg0.win 0).blk t).view.emb (ix4 (0 : Fin 1) k h w)) = _
  rw [V_main_arg0]
  refine congrArg _ (funext fun a => Fin.ext ?_)
  match a with
  | ⟨0, _⟩ => show win0_0.index t (0 : Fin 4) * 1 + 1 * 0 = win0_2.index t (0 : Fin 4); omega
  | ⟨1, _⟩ => show win0_0.index t (1 : Fin 4) * 64 + 1 * k.val = k.val; omega
  | ⟨2, _⟩ => show win0_0.index t (2 : Fin 4) * 56 + 1 * h.val = h.val; omega
  | ⟨3, _⟩ => show win0_0.index t (3 : Fin 4) * 56 + 1 * w.val = w.val; omega

/-- Element (o, k) of point `t`'s weight block is the weight argument at (8c + o, k, 0, 0). -/
theorem w_block (c : Dev nD) (t : Fin cfg0.N) (o : Fin 8) (k : Fin 64) :
    iblk m c 1 t (ix2 o k) = m ((c : Thread nD τ).loc main_arg1) (ix4 (oc t o) k (0 : Fin 1) (0 : Fin 1)) := by
  obtain ⟨e0, e1, e2, e3, e4, e5, e6, e7, e8, e9⟩ := idx_facts t
  have ho : o.val < 8 := o.isLt
  have hk : k.val < 64 := k.isLt
  show V m c main_v0 (((cfg0.win 1).blk t).view.emb (ix2 o k)) = _
  rw [V_main_v0]
  refine shapeCast_apply _ shapeCasts_S64x64x1x1_S64x64 _ (ix4 (oc t o) k (0 : Fin 1) (0 : Fin 1)) ?_
  rw [Shape.rowMajor_val_four, Shape.rowMajor_val_two]
  show (((win0_2.index t (1 : Fin 4) * 8 + o.val) * 64 + k.val) * 1 + 0) * 1 + 0
    = (win0_1.index t (0 : Fin 2) * 8 + 1 * o.val) * 64 + (win0_1.index t (1 : Fin 2) * 64 + 1 * k.val)
  rw [e4, e5]; omega

/-- WHAT POINT `t` STORES at a block index is the d_inf mixing at the array index under it. -/
theorem point_eq (c : Dev nD) (t : Fin cfg0.N) (y : S1x8x56x56.Idx) :
    k0_pay1 (F := Ideal) (iblk m c 0 t) (iblk m c 1 t) y
      = dinf (m ((c : Thread nD τ).loc main_arg0)) (m ((c : Thread nD τ).loc main_arg1)) (((cfg0.win 2).blk t).view.emb y) := by
  obtain ⟨y0, o, h, w, rfl⟩ : ∃ (y0 : Fin 1) (o : Fin 8) (h w : Fin 56), y = ix4 y0 o h w :=
    ⟨y 0, y 1, y 2, y 3, eq_ix4 y⟩
  obtain rfl : y0 = 0 := Subsingleton.elim _ _
  rw [out_index, dinf_apply]
  refine (Body.pay_apply (iblk m c 0 t) (iblk m c 1 t) o h w).trans ?_
  refine congrArg (fun f => (Finset.univ : Finset (Fin 64)).fold max (Ideal.ofBits .f32 0xFF800000#32) f) (funext fun k => ?_)
  rw [x_block, w_block]
  rfl

/-- WHAT POINT `t` WRITES BACK is its block of the d_inf mixing of the arguments. -/
theorem flushed_eq (c : Dev nD) (t : Fin cfg0.N) :
    (dats m 0 c).flushed 2 t = ((cfg0.win 2).blk t).view.read (Elt Ideal)
      (dinf (m ((c : Thread nD τ).loc main_arg0)) (m ((c : Thread nD τ).loc main_arg1))) := by
  rw [ValueP.flushed2]
  unfold out0_2
  rw [View.canon_unit_zero hz4]
  simp only [View.ld_unit_zero (S := S1x64x56x56) hz4, View.ld_unit_zero (S := S8x64) hz2]
  funext y
  exact point_eq m c t y

/-- An array index is in point `t`'s block iff each coordinate is in the block's range on its axis. -/
theorem mem_blk (t : Fin cfg0.N) (i : S8x64x56x56.Idx) :
    i ∈ ((cfg0.win 2).blk t).view.set ↔ ∀ a : Fin 4, win0_2.index t a * S1x8x56x56.size a ≤ (i a).val
      ∧ (i a).val < win0_2.index t a * S1x8x56x56.size a + S1x8x56x56.size a := by
  show i ∈ ((View.whole main_v1).slice (win0_2.rect t)).set ↔ _
  rw [View.set_slice_whole, Rect.mem_set_unit]
  exact Iff.rfl

/-- The output's blocks tile the array: (b, r, h, w) is in the block of the point indexed (b, r / 8). -/
theorem cover (i : S8x64x56x56.Idx) :
    ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 56 := (i 2).isLt
  have hi3 : (i 3).val < 56 := (i 3).isLt
  obtain ⟨t, ht⟩ := idx_onto ⟨(i 0).val, hi0⟩ ⟨(i 1).val / 8, by omega⟩
  have q0 : win0_2.index t (0 : Fin 4) = (i 0).val := congrFun ht 0
  have q1 : win0_2.index t (1 : Fin 4) = (i 1).val / 8 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 56 ≤ (i 2).val ∧ (i 2).val < win0_2.index t (2 : Fin 4) * 56 + 56; omega
  | ⟨3, _⟩ => show win0_2.index t (3 : Fin 4) * 56 ≤ (i 3).val ∧ (i 3).val < win0_2.index t (3 : Fin 4) * 56 + 56; omega

/-- THE ARRAY after the run is the d_inf mixing of the arguments. -/
theorem final (c : Dev nD) : (dats m 0 c).arrAt 2 cfg0.N
    = dinf (m ((c : Thread nD τ).loc main_arg0)) (m ((c : Thread nD τ).loc main_arg1)) :=
  (dats m 0 c).arrAt_eq_of_cover 2 _ (fun t _ => flushed_eq m c t) cover

/-- The run of the idealized kernel: the result array ends at the d_inf mixing, the arguments unchanged. -/
theorem run : θ_run defs (onTc (τ := τ) (main (F := Ideal))) ⟨m, fun _ => 0, ρ⟩ fun r => ∀ c : Dev nD,
      r.2.mem ((c : Thread nD τ).loc main_v1)
        = dinf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (ValueP.run_blocks m ρ)

end Cert.KernelIdeal.Whole

end
-- ==== Proof.RefIsDinf.lean ====
/-
  The reference computes the d_inf mixing.

  The reference broadcasts `x` to [8, 64, 64, 56, 56] along a new output-channel axis and the weight (reshaped to
  [64, 64]) along the batch, row and column axes, adds, takes absolute values and reduces axis 2 (the input channel)
  with `max` from −∞. Read at a result index (b, o, h, w): a one-axis reduction is the fold of `max` over the 64
  coordinates k inserted on axis 2, and the summand at (b, o, k, h, w) reads x at (b, k, h, w) and the weight at
  (o, k, 0, 0) — the reshape's row-major position o·64 + k splits back into (o, k). That is `Cert.Dinf.dinf`.
-/
import proofs.«101002_j53429393162852_1_alg».proof.Proof.Gen.ReferenceIdeal.Read
import proofs.«101002_j53429393162852_1_alg».proof.Proof.DinfSpec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.Dinf

/-- The reduction's shape fact in the form that names the inserted index. -/
theorem hred : S8x64x64x56x56.Reduces [2] S8x64x56x56 := by decide

/-- The summand at (b, o, k, h, w) reads `x` at (b, k, h, w): the two broadcasts drop the output-channel axis. -/
theorem x_index (j : S8x64x56x56.Idx) (k : Fin (S8x64x64x56x56.size 2)) :
    idx_main_v1 (idx_main_v3 (hred.lift j k)) = ix4 (j 0) k (j 2) (j 3) := by
  funext a; apply Fin.ext
  match a with
  | ⟨0, _⟩ => rfl
  | ⟨1, _⟩ => rfl
  | ⟨2, _⟩ => rfl
  | ⟨3, _⟩ => rfl

/-- … and the weight at (o, k, 0, 0): the broadcasts keep axes 1 and 2, and the reshape to [64, 64] is undone by
    dividing the row-major position o·64 + k by 64. -/
theorem w_index (j : S8x64x56x56.Idx) (k : Fin (S8x64x64x56x56.size 2)) :
    idx_main_v0 (idx_main_v2 (idx_main_v4 (hred.lift j k))) = ix4 (j 1) k (0 : Fin 1) (0 : Fin 1) := by
  have h1 : (j 1).val < 64 := (j 1).isLt
  have hk : k.val < 64 := k.isLt
  funext a; apply Fin.ext
  match a with
  | ⟨0, _⟩ => show ((j 1).val * 64 + k.val) / 64 = (j 1).val; omega
  | ⟨1, _⟩ => show ((j 1).val * 64 + k.val) / 1 % 64 = k.val; omega
  | ⟨2, _⟩ => rfl
  | ⟨3, _⟩ => rfl

/-- The last stage of the reference, as a function of the two arguments, is the d_inf mixing. -/
theorem ref_eq (x0 : (⟨S8x64x56x56, .f32⟩ : BufTy).Contents (Elt Ideal)) (x1 : (⟨S64x64x1x1, .f32⟩ : BufTy).Contents (Elt Ideal)) :
    val_main_v7 (F := Ideal) x0 x1 = dinf x0 x1 := by
  funext j
  unfold val_main_v7
  rw [Host.reduce_eq_fold_single (FloatOps.maximumf (F := Ideal) (φ := .f32)) _ _
    reducesTo_S8x64x64x56x56_S8x64x56x56_d2 hred h_S_ j, dinf_apply]
  have hterm : (val_main_v6 (F := Ideal) x0 x1 ∘ hred.lift j) = term x0 x1 j := by
    funext k
    show val_main_v6 (F := Ideal) x0 x1 (hred.lift j k) = _
    rw [val_main_v6_apply, val_main_v5_apply, val_main_v3_apply, val_main_v1_apply, val_main_v4_apply,
      val_main_v2_apply, val_main_v0_apply, x_index, w_index]
    rfl
  rw [hterm]
  rfl

end Cert.ReferenceIdeal.RefValue

end
-- ==== Proof.lean ====
/-
  The certificate of the d_inf channel-mixing kernel against its jnp reference:

      out[b, o, h, w] = max over the 64 input channels k of | x[b, k, h, w] + weight[o, k, 0, 0] |.

  Both programs compute exactly this function of their arguments over the extended reals (`Cert.Dinf.dinf`,
  Proof/DinfSpec.lean): the kernel block by block over an 8 × 8 grid (one batch entry and eight output channels per
  point; Proof/BodyIsDinf.lean reads what a point stores, Proof/KernelIsDinf.lean lays the 64 blocks out over the
  array), the reference by broadcasting both operands to [8, 64, 64, 56, 56] and reducing the channel axis with
  `max` from −∞ (Proof/RefIsDinf.lean). The two agree term by term — the same 64 values under the same lattice fold —
  so no arithmetic law is needed and the precondition (finite inputs) is never opened.
  The three frames are the generated ones (the reference's is its generated run with the result dropped), and the
  idealization rewrote nothing, so `preserves` is `True`.
-/
import proofs.«101002_j53429393162852_1_alg».proof.Defs
import proofs.«101002_j53429393162852_1_alg».proof.Proof.Gen.Kernel
import proofs.«101002_j53429393162852_1_alg».proof.Proof.Gen.Kernel.Skeleton
import proofs.«101002_j53429393162852_1_alg».proof.Proof.Gen.Kernel.Launch
import proofs.«101002_j53429393162852_1_alg».proof.Proof.Gen.Kernel.Points
import proofs.«101002_j53429393162852_1_alg».proof.Proof.Gen.Kernel.Frame
import proofs.«101002_j53429393162852_1_alg».proof.Proof.Gen.KernelIdeal
import proofs.«101002_j53429393162852_1_alg».proof.Proof.Gen.KernelIdeal.Skeleton
import proofs.«101002_j53429393162852_1_alg».proof.Proof.Gen.KernelIdeal.Launch
import proofs.«101002_j53429393162852_1_alg».proof.Proof.Gen.KernelIdeal.Points
import proofs.«101002_j53429393162852_1_alg».proof.Proof.Gen.KernelIdeal.Frame
import proofs.«101002_j53429393162852_1_alg».proof.Proof.Gen.ReferenceIdeal
import proofs.«101002_j53429393162852_1_alg».proof.Proof.Gen.ReferenceIdeal.Run
import proofs.«101002_j53429393162852_1_alg».proof.Proof.Gen.ReferenceIdeal.Read
import proofs.«101002_j53429393162852_1_alg».proof.Proof.Gen.Pre_finite_inputs
import proofs.«101002_j53429393162852_1_alg».proof.Proof.KernelIsDinf
import proofs.«101002_j53429393162852_1_alg».proof.Proof.RefIsDinf
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the d_inf mixing of (agreeing) arguments. -/
theorem algebraic : Cert.algebraic_KernelIdeal_ReferenceIdeal := by
  intro m ρ m' ρ' _ hagree
  refine ⟨fun c => Cert.Dinf.dinf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
